-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3x300x25 : Shape := ⟨4, ![2048, 3, 300, 25]⟩
abbrev S_ : Shape := ⟨0, ![]⟩

class Facts : Prop where
  bcast_S_S2048x3x300x25 : S_.BroadcastsInDim S2048x3x300x25 (![] : Fin 0 → Fin S2048x3x300x25.rank)
  reducesTo_S2048x3x300x25_S_d0_1_2_3 : S2048x3x300x25.ReducesTo [0, 1, 2, 3] S_
  h_S_ : 0 < S_.numel

variable [Facts]

def fn {F : FTy → Type} [FloatOps F] (main_arg0 : FVec F S2048x3x300x25 .f32) (main_arg1 : FVec F S2048x3x300x25 .f32) : IVec S_ 1 :=
  let main_v0 : FVec F S2048x3x300x25 .f32 := Host.absf main_arg0
  let main_cst : FVec F S_ .f32 := constant S_ .f32 0x7F800000#32
  let main_v1 : FVec F S2048x3x300x25 .f32 := broadcastInDim S2048x3x300x25 ![] bcast_S_S2048x3x300x25 main_cst
  let main_v2 : IVec S2048x3x300x25 1 := cmpf .olt main_v0 main_v1
  let main_c : IVec S_ 1 := constantI S_ 1 1#1
  let main_v3 : IVec S_ 1 := (fun x v => Host.reduce IntOp.andi x v reducesTo_S2048x3x300x25_S_d0_1_2_3 h_S_) main_v2 main_c
  let main_v4 : FVec F S2048x3x300x25 .f32 := Host.absf main_arg1
  let main_cst_0 : FVec F S_ .f32 := constant S_ .f32 0x7F800000#32
  let main_v5 : FVec F S2048x3x300x25 .f32 := broadcastInDim S2048x3x300x25 ![] bcast_S_S2048x3x300x25 main_cst_0
  let main_v6 : IVec S2048x3x300x25 1 := cmpf .olt main_v4 main_v5
  let main_c_1 : IVec S_ 1 := constantI S_ 1 1#1
  let main_v7 : IVec S_ 1 := (fun x v => Host.reduce IntOp.andi x v reducesTo_S2048x3x300x25_S_d0_1_2_3 h_S_) main_v6 main_c_1
  let main_v8 : IVec S_ 1 := andi main_v3 main_v7
  main_v8
-- ==== Kernel.lean ====
abbrev S2048x3x300x25 : Shape := ⟨4, ![2048, 3, 300, 25]⟩
abbrev S2x8x128 : Shape := ⟨3, ![2, 8, 128]⟩
abbrev S8x3x300x25 : Shape := ⟨4, ![8, 3, 300, 25]⟩
abbrev S1x8x128 : Shape := ⟨3, ![1, 8, 128]⟩
abbrev S8x3x300 : Shape := ⟨3, ![8, 3, 300]⟩
abbrev S8x3 : Shape := ⟨2, ![8, 3]⟩
abbrev S8 : Shape := ⟨1, ![8]⟩
abbrev S1x8 : Shape := ⟨2, ![1, 8]⟩
abbrev S1 : Shape := ⟨1, ![1]⟩
abbrev S1x1 : Shape := ⟨2, ![1, 1]⟩
abbrev S8x3x299x25 : Shape := ⟨4, ![8, 3, 299, 25]⟩
abbrev S8x3x25 : Shape := ⟨3, ![8, 3, 25]⟩
abbrev S8x3x24 : Shape := ⟨3, ![8, 3, 24]⟩
abbrev S2x1x1 : Shape := ⟨3, ![2, 1, 1]⟩
abbrev S2 : Shape := ⟨1, ![2]⟩
abbrev S_ : Shape := ⟨0, ![]⟩

abbrev nBuf : Space → Nat
  | .hbm => 23
  | .vmem => 8
  | .smem => 0
  | _ => 0

abbrev bufTy : (tb : Table) → Fin (tcTables nBuf tb) → BufTy
  | .hbm, ⟨0, _⟩ => ⟨S2048x3x300x25, .f32⟩
  | .hbm, ⟨1, _⟩ => ⟨S2048x3x300x25, .f32⟩
  | .hbm, ⟨2, _⟩ => ⟨S2x8x128, .f32⟩
  | .hbm, ⟨3, _⟩ => ⟨S2x8x128, .f32⟩
  | .hbm, ⟨4, _⟩ => ⟨S2x1x1, .f32⟩
  | .hbm, ⟨5, _⟩ => ⟨S2, .f32⟩
  | .hbm, ⟨6, _⟩ => ⟨S_, .f32⟩
  | .hbm, ⟨7, _⟩ => ⟨S_, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S8x3x300x25, .f32⟩
  | .local _ .vmem, ⟨1, _⟩ => ⟨S8x3x300x25, .f32⟩
  | .local _ .vmem, ⟨2, _⟩ => ⟨S8x3x300x25, .f32⟩
  | .local _ .vmem, ⟨3, _⟩ => ⟨S8x3x300x25, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S2048x3x300x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x300x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3x300x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S8x3x300x25_S8x3x300x25_0_0_0_0 : ∀ a, (![0, 0, 0, 0] : Fin 4 → Nat) a + S8x3x300x25.size a ≤ S8x3x300x25.size a
  h_S8x3x300x25 : 0 < S8x3x300x25.numel
  reduces_S8x3x300x25_S8x3x300 : S8x3x300x25.Reduces [3] S8x3x300
  reduces_S8x3x300_S8x3 : S8x3x300.Reduces [2] S8x3
  reduces_S8x3_S8 : S8x3.Reduces [1] S8
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S1x8x128_S1x8x128 : S1x8x128.ShapeCasts S1x8x128
  slices_S8x3x300x25_o0_0_0_0_S8x3x299x25 : S8x3x300x25.Slices ![0, 0, 0, 0] S8x3x299x25
  slices_S8x3x300x25_o0_0_1_0_S8x3x299x25 : S8x3x300x25.Slices ![0, 0, 1, 0] S8x3x299x25
  reduces_S8x3x299x25_S8x3x25 : S8x3x299x25.Reduces [2] S8x3x25
  slices_S8x3x25_o0_0_0_S8x3x24 : S8x3x25.Slices ![0, 0, 0] S8x3x24
  reduces_S8x3x24_S8x3 : S8x3x24.Reduces [2] S8x3
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x300x25.size a ≤ S2048x3x300x25.size a
  hwx0_0 : ∀ i : grid0.Coords, EltTy.bits .f32 = 32 ∨ (Rect.block (s := S2048x3x300x25) S8x3x300x25.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x3x300x25.size a ≤ S2048x3x300x25.size a
  hwx0_1 : ∀ i : grid0.Coords, EltTy.bits .f32 = 32 ∨ (Rect.block (s := S2048x3x300x25) S8x3x300x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_arg0) S8x3x300x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3x300x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x3x300x25 : Shape := ⟨4, ![2048, 3, 300, 25]⟩
abbrev S_ : Shape := ⟨0, ![]⟩
abbrev S2048x25x300x3 : Shape := ⟨4, ![2048, 25, 300, 3]⟩
abbrev S2048x25x299x3 : Shape := ⟨4, ![2048, 25, 299, 3]⟩
abbrev S2048x25x3 : Shape := ⟨3, ![2048, 25, 3]⟩
abbrev S2048x24x3 : Shape := ⟨3, ![2048, 24, 3]⟩
abbrev S2048x3 : Shape := ⟨2, ![2048, 3]⟩

abbrev nBuf : Space → Nat
  | .hbm => 40
  | .vmem => 0
  | .smem => 0
  | _ => 0

abbrev bufTy : (tb : Table) → Fin (tcTables nBuf tb) → BufTy
  | .hbm, ⟨0, _⟩ => ⟨S2048x3x300x25, .f32⟩
  | .hbm, ⟨1, _⟩ => ⟨S2048x3x300x25, .f32⟩
  | .hbm, ⟨2, _⟩ => ⟨S2048x3x300x25, .f32⟩
  | .hbm, ⟨3, _⟩ => ⟨S2048x3x300x25, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x25x300x3, .f32⟩
  | .hbm, ⟨9, _⟩ => ⟨S2048x25x300x3, .f32⟩
  | .hbm, ⟨10, _⟩ => ⟨S2048x25x299x3, .f32⟩
  | .hbm, ⟨11, _⟩ => ⟨S2048x25x299x3, .f32⟩
  | .hbm, ⟨12, _⟩ => ⟨S2048x25x299x3, .f32⟩
  | .hbm, ⟨13, _⟩ => ⟨S2048x25x299x3, .f32⟩
  | .hbm, ⟨14, _⟩ => ⟨S_, .f32⟩
  | .hbm, ⟨15, _⟩ => ⟨S2048x25x3, .f32⟩
  | .hbm, ⟨16, _⟩ => ⟨S2048x25x299x3, .f32⟩
  | .hbm, ⟨17, _⟩ => ⟨S2048x25x299x3, .f32⟩
  | .hbm, ⟨18, _⟩ => ⟨S2048x25x299x3, .f32⟩
  | .hbm, ⟨19, _⟩ => ⟨S2048x25x299x3, .f32⟩
  | .hbm, ⟨20, _⟩ => ⟨S_, .f32⟩
  | .hbm, ⟨21, _⟩ => ⟨S2048x25x3, .f32⟩
  | .hbm, ⟨22, _⟩ => ⟨S2048x25x3, .f32⟩
  | .hbm, ⟨23, _⟩ => ⟨S2048x25x3, .f32⟩
  | .hbm, ⟨24, _⟩ => ⟨S2048x24x3, .f32⟩
  | .hbm, ⟨25, _⟩ => ⟨S_, .f32⟩
  | .hbm, ⟨26, _⟩ => ⟨S2048x3, .f32⟩
  | .hbm, ⟨27, _⟩ => ⟨S2048x3, .f32⟩
  | .hbm, ⟨28, _⟩ => ⟨S_, .f32⟩
  | .hbm, ⟨29, _⟩ => ⟨S2048x3, .f32⟩
  | .hbm, ⟨30, _⟩ => ⟨S2048x3, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S2048x3x300x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  reducesTo_S2048x3x300x25_S_d0_1_2_3 : S2048x3x300x25.ReducesTo [0, 1, 2, 3] S_
  h_S_ : 0 < S_.numel
  transposes_S2048x3x300x25_S2048x25x300x3_0_3_2_1 : S2048x3x300x25.Transposes [0, 3, 2, 1] S2048x25x300x3
  slices_S2048x25x300x3_S2048x25x299x3_0_0_0_0 : S2048x25x300x3.Slices ![0, 0, 0, 0] S2048x25x299x3
  slices_S2048x25x300x3_S2048x25x299x3_0_0_1_0 : S2048x25x300x3.Slices ![0, 0, 1, 0] S2048x25x299x3
  reducesTo_S2048x25x299x3_S2048x25x3_d2 : S2048x25x299x3.ReducesTo [2] S2048x25x3
  slices_S2048x25x3_S2048x24x3_0_0_0 : S2048x25x3.Slices ![0, 0, 0] S2048x24x3
  reducesTo_S2048x24x3_S2048x3_d1 : S2048x24x3.ReducesTo [1] S2048x3
  bcast_S_S2048x3 : S_.BroadcastsInDim S2048x3 (![] : Fin 0 → Fin S2048x3.rank)
  reducesTo_S2048x3_S_d0_1 : S2048x3.ReducesTo [0, 1] S_

variable [Facts₀]

class Facts : Prop extends Facts₀ where

variable [Facts]
-- ==== Proof.Consts.lean ====
/-
  The float words whose numerical values the proof needs: the two divisors of the roughness term,
  6144 = 2048 · 3 (the number of (sample, channel) pairs) and 7500 = 25 · 300.
-/
import Idealize.ShloMosaic.PureOps.Ideal

noncomputable section

namespace Cert.Consts

open Idealize.ShloMosaic

/-- The word `0x45C00000` is the real number 6144. -/
theorem ofBits_6144 : Ideal.ofBits .f32 0x45C00000#32 = ((6144 : ℝ) : EReal) := by
  simp [Ideal.ofBits, Ideal.ieee, -EReal.coe_mul]; norm_num

/-- The word `0x45EA6000` is the real number 7500. -/
theorem ofBits_7500 : Ideal.ofBits .f32 0x45EA6000#32 = ((7500 : ℝ) : EReal) := by
  simp [Ideal.ofBits, Ideal.ieee, -EReal.coe_mul]; norm_num

end Cert.Consts

end
-- ==== Proof.Spec.lean ====
/-
  The loss both programs compute, as one function of the two input arrays X (inputs) and T (targets),
  each indexed by (sample b, channel ch, frame t, joint j):

    loss = 2 · (Σ_{b,ch,t,j} (X − T)²) / 46080000  +  3 · ((Σ_{b,ch} rough b ch) / 6144) / 7500

  where rough b ch = √( Σ_{j<24} | drift X b ch j − drift T b ch j | ) and
  drift X b ch j = Σ_{t<299} ( X[b,ch,t,j] − X[b,ch,t+1,j]² ).

  The two programs differ in where the division by 7500 sits: one divides the grand total, the other divides
  every root before adding them up. Every root is ≥ 0 (a root of a sum of absolute values), and on the extended
  reals multiplication by a constant distributes over a sum of non-negative terms, so the two arrangements agree
  with no appeal to finiteness.
-/
import proofs.«162013_j69655779606927_1_alg».proof.Proof.Consts
import Idealize.ShloMosaic.PureOps.Ideal.Laws
import Idealize.ShloMosaic.Lib.ValueIdx

noncomputable section

namespace Cert.Loss

open Idealize.ShloMosaic Idealize.ShloMosaic.ValueIdx
open scoped BigOperators

/-- The shape of an array of `n` samples: each input array is `Arr 2048`, a block of eight samples `Arr 8`. -/
abbrev Arr (n : Nat) : Shape := ⟨4, ![n, 3, 300, 25]⟩

/-- The squared error at one entry. -/
def sqErr {n : Nat} (X T : (Arr n).Idx → EReal) (b : Fin n) (ch : Fin 3) (t : Fin 300) (j : Fin 25) : EReal :=
  (X (ix4 b ch t j) - T (ix4 b ch t j)) * (X (ix4 b ch t j) - T (ix4 b ch t j))

/-- Along the frames of one (sample, channel, joint): each frame minus the square of the next, summed. -/
def drift {n : Nat} (X : (Arr n).Idx → EReal) (b : Fin n) (ch : Fin 3) (j : Fin 25) : EReal :=
  ∑ t : Fin 299, (X (ix4 b ch t.castSucc j) - X (ix4 b ch t.succ j) * X (ix4 b ch t.succ j))

/-- The difference of the two arrays' drifts at one of the first 24 joints. -/
def gap {n : Nat} (X T : (Arr n).Idx → EReal) (b : Fin n) (ch : Fin 3) (j : Fin 24) : EReal :=
  drift X b ch j.castSucc - drift T b ch j.castSucc

/-- The root of the summed absolute gaps of one (sample, channel). -/
def rough {n : Nat} (X T : (Arr n).Idx → EReal) (b : Fin n) (ch : Fin 3) : EReal :=
  Ideal.sqrt (∑ j : Fin 24, max (gap X T b ch j) (-(gap X T b ch j)))

/-- The total squared error. -/
def errTotal (X T : (Arr 2048).Idx → EReal) : EReal := ∑ b : Fin 2048, ∑ ch : Fin 3, ∑ t : Fin 300, ∑ j : Fin 25, sqErr X T b ch t j

/-- The total of the roots. -/
def roughTotal (X T : (Arr 2048).Idx → EReal) : EReal := ∑ b : Fin 2048, ∑ ch : Fin 3, rough X T b ch

/-- The loss. -/
def loss (X T : (Arr 2048).Idx → EReal) : EReal :=
  Ideal.ofBits .f32 0x40000000#32 * Ideal.div (errTotal X T) (Ideal.ofBits .f32 0x4C2FC800#32)
    + Ideal.ofBits .f32 0x40400000#32
      * Ideal.div (Ideal.div (roughTotal X T) (Ideal.ofBits .f32 0x45C00000#32)) (Ideal.ofBits .f32 0x45EA6000#32)

/-! ## Non-negativity, and the constant through the sum -/

theorem abs_nonneg (a : EReal) : 0 ≤ max a (-a) := by
  rcases le_total 0 a with h | h
  · exact le_max_of_le_left h
  · exact le_max_of_le_right (EReal.neg_nonneg.mpr h)

theorem sqrt_nonneg {y : EReal} (h : 0 ≤ y) : 0 ≤ Ideal.sqrt y := by
  induction y using EReal.rec with
  | bot => exact absurd h (by simp)
  | top => simp
  | coe r =>
    have hr : 0 ≤ r := EReal.coe_nonneg.mp h
    rw [Ideal.sqrt_coe, if_neg (not_lt.mpr hr)]
    exact EReal.coe_nonneg.mpr (Real.sqrt_nonneg r)

theorem rough_nonneg {n : Nat} (X T : (Arr n).Idx → EReal) (b : Fin n) (ch : Fin 3) : 0 ≤ rough X T b ch :=
  sqrt_nonneg (Finset.sum_nonneg fun j _ => abs_nonneg _)

/-- A constant factor passes through a sum of non-negative extended reals. -/
theorem sum_mul_of_nonneg {ι : Type} (s : Finset ι) (f : ι → EReal) (hf : ∀ i ∈ s, 0 ≤ f i) (k : EReal) :
    (∑ i ∈ s, f i) * k = ∑ i ∈ s, f i * k := by
  classical
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

/-- Dividing every root by 7500 and the total by 6144 is dividing the total of the roots by 6144 and then by 7500. -/
theorem rough_arrangement (X T : (Arr 2048).Idx → EReal) :
    Ideal.div (∑ b : Fin 2048, ∑ ch : Fin 3, Ideal.div (rough X T b ch) (Ideal.ofBits .f32 0x45EA6000#32))
        (Ideal.ofBits .f32 0x45C00000#32)
      = Ideal.div (Ideal.div (roughTotal X T) (Ideal.ofBits .f32 0x45C00000#32)) (Ideal.ofBits .f32 0x45EA6000#32) := by
  rw [Cert.Consts.ofBits_6144, Cert.Consts.ofBits_7500]
  simp only [Ideal.div_coe (by norm_num : (6144 : ℝ) ≠ 0), Ideal.div_coe (by norm_num : (7500 : ℝ) ≠ 0)]
  unfold roughTotal
  have inner : ∀ b : Fin 2048, ∑ ch : Fin 3, rough X T b ch * ((1 / 7500 : ℝ) : EReal)
      = (∑ ch : Fin 3, rough X T b ch) * ((1 / 7500 : ℝ) : EReal) := fun b =>
    (sum_mul_of_nonneg _ _ (fun ch _ => rough_nonneg X T b ch) _).symm
  rw [Finset.sum_congr rfl fun b _ => inner b,
    ← sum_mul_of_nonneg _ _ (fun b _ => Finset.sum_nonneg fun ch _ => rough_nonneg X T b ch)]
  exact mul_right_comm _ _ _

end Cert.Loss

end
-- ==== Proof.Sums.lean ====
/-
  Finite sums re-indexed: a sum over the multi-indices of a rank-1, rank-3 or rank-4 array is the iterated sum over its
  coordinates, and a sum over `Fin (N * K)` is the sum over N groups of K consecutive indices.
-/
import Idealize.ShloMosaic.Lib.ValueIdx

noncomputable section

namespace Cert.Sums

open Idealize.ShloMosaic Idealize.ShloMosaic.ValueIdx
open scoped BigOperators

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  simp only [Fintype.sum_prod_type]
  rfl

/-- Index `K * n + k` of `Fin (N * K)`, from the group `n` and the place `k` inside it. -/
def grp {N K : Nat} (n : Fin N) (k : Fin K) : Fin (N * K) :=
  ⟨K * n.val + k.val, by
    have h1 := n.isLt
    have h2 := k.isLt
    calc K * n.val + k.val < K * n.val + K := by omega
      _ = K * (n.val + 1) := by ring
      _ ≤ K * N := Nat.mul_le_mul_left K h1
      _ = N * K := Nat.mul_comm K N⟩

/-- A sum over `Fin (N * K)` group by group. -/
theorem sum_grp {M : Type*} [AddCommMonoid M] (N K : Nat) (f : Fin (N * K) → M) :
    ∑ i, f i = ∑ n : Fin N, ∑ k : Fin K, f (grp n k) := by
  rw [← Equiv.sum_comp (finProdFinEquiv (m := N) (n := K)) f, Fintype.sum_prod_type]
  refine Finset.sum_congr rfl fun n _ => Finset.sum_congr rfl fun k _ => congrArg f (Fin.ext ?_)
  show k.val + K * n.val = K * n.val + k.val
  omega

end Cert.Sums

end
-- ==== Proof.RefValue.lean ====
/-
  The reference program computes the loss: read one operation at a time at the ideal values, its result is
  `Cert.Loss.loss` of the two argument arrays — the mean squared error as the total over every entry divided
  by the entry count, the roughness term as every (sample, channel) root divided by 7500, totalled and divided
  by 6144. The reference works on the arrays transposed to (sample, joint, frame, channel); reading its slices
  and sums back through the transposition gives the drifts along the frame axis of the original layout.
-/
import proofs.«162013_j69655779606927_1_alg».proof.Defs
import proofs.«162013_j69655779606927_1_alg».proof.Proof.Gen.ReferenceIdeal.Run
import proofs.«162013_j69655779606927_1_alg».proof.Proof.Gen.ReferenceIdeal.Read
import proofs.«162013_j69655779606927_1_alg».proof.Proof.Spec
import proofs.«162013_j69655779606927_1_alg».proof.Proof.Sums

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Loss

/-- The reference's frame sum for the first array, at (sample b, joint j, channel ch) of its transposed layout, is the drift. -/
theorem drift_x (x : (⟨S2048x3x300x25, .f32⟩ : BufTy).Contents (Elt Ideal)) (b : Fin 2048) (j : Fin 25) (ch : Fin 3) :
    val_main_v10 (F := Ideal) x (ix3 b j ch) = drift x b ch j := by
  rw [val_main_v10_apply]
  show Ideal.ofBits .f32 0x00000000#32 + _ = _
  rw [Ideal.ofBits_zero_f32, zero_add]
  unfold drift
  refine Finset.sum_congr rfl fun t _ => ?_
  rw [val_main_v9_apply, val_main_v6_apply, val_main_v8_apply, val_main_v7_apply, val_main_v4_apply, val_main_v4_apply]
  have e1 : idx_main_v4 (idx_main_v6 (idx_main_v10 (ix3 b j ch) t)) = ix4 b ch t.castSucc j :=
    funext fun a => Fin.ext (by match a with | ⟨0, _⟩ => rfl | ⟨1, _⟩ => rfl | ⟨2, _⟩ => rfl | ⟨3, _⟩ => rfl)
  have e2 : idx_main_v4 (idx_main_v7 (idx_main_v10 (ix3 b j ch) t)) = ix4 b ch t.succ j :=
    funext fun a => Fin.ext (by
      match a with
      | ⟨0, _⟩ => rfl
      | ⟨1, _⟩ => rfl
      | ⟨2, _⟩ => show 1 + t.val = t.val + 1; omega
      | ⟨3, _⟩ => rfl)
  rw [e1, e2]
  rfl

/-- The same for the second array. -/
theorem drift_t (x : (⟨S2048x3x300x25, .f32⟩ : BufTy).Contents (Elt Ideal)) (b : Fin 2048) (j : Fin 25) (ch : Fin 3) :
    val_main_v15 (F := Ideal) x (ix3 b j ch) = drift x b ch j := by
  rw [val_main_v15_apply]
  show Ideal.ofBits .f32 0x00000000#32 + _ = _
  rw [Ideal.ofBits_zero_f32, zero_add]
  unfold drift
  refine Finset.sum_congr rfl fun t _ => ?_
  rw [val_main_v14_apply, val_main_v11_apply, val_main_v13_apply, val_main_v12_apply, val_main_v5_apply, val_main_v5_apply]
  have e1 : idx_main_v5 (idx_main_v11 (idx_main_v15 (ix3 b j ch) t)) = ix4 b ch t.castSucc j :=
    funext fun a => Fin.ext (by match a with | ⟨0, _⟩ => rfl | ⟨1, _⟩ => rfl | ⟨2, _⟩ => rfl | ⟨3, _⟩ => rfl)
  have e2 : idx_main_v5 (idx_main_v12 (idx_main_v15 (ix3 b j ch) t)) = ix4 b ch t.succ j :=
    funext fun a => Fin.ext (by
      match a with
      | ⟨0, _⟩ => rfl
      | ⟨1, _⟩ => rfl
      | ⟨2, _⟩ => show 1 + t.val = t.val + 1; omega
      | ⟨3, _⟩ => rfl)
  rw [e1, e2]
  rfl

/-- The reference's root at (sample b, channel ch). -/
theorem rough_ref (x0 x1 : (⟨S2048x3x300x25, .f32⟩ : BufTy).Contents (Elt Ideal)) (b : Fin 2048) (ch : Fin 3) :
    val_main_v20 (F := Ideal) x0 x1 (ix2 b ch) = rough x0 x1 b ch := by
  rw [val_main_v20_apply, Ideal.hostUnary_sqrt_def, val_main_v19_apply]
  show Ideal.sqrt (Ideal.ofBits .f32 0x00000000#32 + _) = _
  rw [Ideal.ofBits_zero_f32, zero_add]
  unfold rough gap
  refine congrArg Ideal.sqrt (Finset.sum_congr rfl fun k _ => ?_)
  rw [val_main_v18_apply, val_main_v17_apply, val_main_v16_apply]
  have e : idx_main_v18 (idx_main_v19 (ix2 b ch) k) = ix3 b k.castSucc ch :=
    funext fun a => Fin.ext (by match a with | ⟨0, _⟩ => rfl | ⟨1, _⟩ => rfl | ⟨2, _⟩ => rfl)
  rw [e, drift_x, drift_t]
  rfl

/-- The reference's result is the loss. -/
theorem result_eq (x0 x1 : (⟨S2048x3x300x25, .f32⟩ : BufTy).Contents (Elt Ideal)) (i : S_.Idx) :
    val_main_v27 (F := Ideal) x0 x1 i = loss x0 x1 := by
  have herr : val_main_v2 (F := Ideal) x0 x1 i = errTotal x0 x1 := by
    rw [val_main_v2_apply]
    show Ideal.ofBits .f32 0x00000000#32 + _ = _
    rw [Ideal.ofBits_zero_f32, zero_add, Cert.Sums.sum_idx4]
    rfl
  have hrough : val_main_v24 (F := Ideal) x0 x1 i
      = Ideal.div (Ideal.div (roughTotal x0 x1) (Ideal.ofBits .f32 0x45C00000#32)) (Ideal.ofBits .f32 0x45EA6000#32) := by
    rw [← rough_arrangement, val_main_v24_apply, val_main_v23_apply]
    show Ideal.div (Ideal.ofBits .f32 0x00000000#32 + _) _ = _
    rw [Ideal.ofBits_zero_f32, zero_add, sum_idx2]
    refine congrArg (Ideal.div · _) (Finset.sum_congr rfl fun b _ => Finset.sum_congr rfl fun ch _ => ?_)
    rw [val_main_v22_apply, rough_ref]
    rfl
  rw [val_main_v27_apply, val_main_v25_apply, val_main_v26_apply, val_main_v3_apply, herr, hrough]
  rfl

end Cert.ReferenceIdeal.RefValue

end
-- ==== Proof.StepIdeal.lean ====
/-
  What one run of the kernel body leaves in the two accumulator blocks, as the body's own arithmetic
  applied to the two input blocks and to what the accumulators held: at the first step of a core the
  accumulators are reset to zero before the step's partial sums are added, at every later step the
  partial sums are added to what the step before left.
-/
import proofs.«162013_j69655779606927_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- A later step: the squared-error accumulator ends at its old contents plus the step's squared-error sum. -/
theorem later_err (c : Dev nD) (i : grid0.Coords) (a2 : Memref sig .tc .vmem S8x3x300x25 .f32) (h2 : a2.IsWhole) (a3 : Memref sig .tc .vmem S8x3x300x25 .f32) (h3 : a3.IsWhole) (a4 : Memref sig .tc .vmem S1x8x128 .f32) (h4 : a4.IsWhole) (a5 : Memref sig .tc .vmem S1x8x128 .f32) (h5 : a5.IsWhole) (hc : ¬cond0_0 i)
    (x0 x1 : Vec F S8x3x300x25 .f32) (xo2 xo3 : Vec F S1x8x128 .f32) :
    out0_B_2 c i a2 h2 a3 h3 a4 h4 a5 h5 hc x0 x1 xo2 xo3 = k0_pay4 x0 x1 xo2 := by
  unfold out0_B_2
  rw [View.read_writes_eq_canon _ _ _ (cover0_B_2 c i a2 h2 a3 h3 a4 h4 a5 h5 hc x0 x1 xo2 xo3)]
  unfold kernelRun0_B
  dsimp only
  sl_unfold_words
  rw [View.canon_unit_zero zero3]
  simp only [View.readAt_eq_ld, h2.read_unread, h3.read_unread, h4.read_unread,
    View.ld_unit_zero (S := S8x3x300x25) zero4, View.ld_unit_zero (S := S1x8x128) zero3]

/-- A later step: the roughness accumulator ends at its old contents plus the step's sum of root roughnesses. -/
theorem later_rough (c : Dev nD) (i : grid0.Coords) (a2 : Memref sig .tc .vmem S8x3x300x25 .f32) (h2 : a2.IsWhole) (a3 : Memref sig .tc .vmem S8x3x300x25 .f32) (h3 : a3.IsWhole) (a4 : Memref sig .tc .vmem S1x8x128 .f32) (h4 : a4.IsWhole) (a5 : Memref sig .tc .vmem S1x8x128 .f32) (h5 : a5.IsWhole) (hc : ¬cond0_0 i)
    (x0 x1 : Vec F S8x3x300x25 .f32) (xo2 xo3 : Vec F S1x8x128 .f32) :
    out0_B_3 c i a2 h2 a3 h3 a4 h4 a5 h5 hc x0 x1 xo2 xo3 = k0_pay1 (k0_pay5 x0 x1) xo3 := by
  unfold out0_B_3
  rw [View.read_writes_eq_canon _ _ _ (cover0_B_3 c i a2 h2 a3 h3 a4 h4 a5 h5 hc x0 x1 xo2 xo3)]
  unfold kernelRun0_B
  dsimp only
  sl_unfold_words
  rw [View.canon_unit_zero zero3]
  simp only [View.readAt_eq_ld, h2.read_unread, h3.read_unread, h5.read_unread,
    View.ld_unit_zero (S := S8x3x300x25) zero4, View.ld_unit_zero (S := S1x8x128) zero3]

/-- A core's first step: the squared-error accumulator ends at zero plus the step's squared-error sum. -/
theorem first_err (c : Dev nD) (i : grid0.Coords) (a2 : Memref sig .tc .vmem S8x3x300x25 .f32) (h2 : a2.IsWhole) (a3 : Memref sig .tc .vmem S8x3x300x25 .f32) (h3 : a3.IsWhole) (a4 : Memref sig .tc .vmem S1x8x128 .f32) (h4 : a4.IsWhole) (a5 : Memref sig .tc .vmem S1x8x128 .f32) (h5 : a5.IsWhole) (hc : cond0_0 i)
    (x0 x1 : Vec F S8x3x300x25 .f32) :
    out0_A_2 c i a2 h2 a3 h3 a4 h4 a5 h5 hc x0 x1 = k0_pay4 x0 x1 (k0_pay2 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x8x128) zero3, View.readCov_unit_zero (S := S1x8x128) _ zero3]
  simp only [View.readAt_eq_ld, h2.read_unread, h3.read_unread,
    View.ld_unit_zero (S := S8x3x300x25) zero4, View.ld_unit_zero (S := S1x8x128) zero3]

/-- A core's first step: the roughness accumulator ends at zero plus the step's sum of root roughnesses. -/
theorem first_rough (c : Dev nD) (i : grid0.Coords) (a2 : Memref sig .tc .vmem S8x3x300x25 .f32) (h2 : a2.IsWhole) (a3 : Memref sig .tc .vmem S8x3x300x25 .f32) (h3 : a3.IsWhole) (a4 : Memref sig .tc .vmem S1x8x128 .f32) (h4 : a4.IsWhole) (a5 : Memref sig .tc .vmem S1x8x128 .f32) (h5 : a5.IsWhole) (hc : cond0_0 i)
    (x0 x1 : Vec F S8x3x300x25 .f32) :
    out0_A_3 c i a2 h2 a3 h3 a4 h4 a5 h5 hc x0 x1 = k0_pay1 (k0_pay5 x0 x1) (k0_pay3 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x8x128) zero3, View.readCov_unit_zero (S := S1x8x128) _ zero3]
  simp only [View.readAt_eq_ld, h2.read_unread, h3.read_unread,
    View.ld_unit_zero (S := S8x3x300x25) zero4, View.ld_unit_zero (S := S1x8x128) zero3]

/-! ## At a grid point -/

variable (m : (ℓ : Loc nD τ sig) → Buf (Elt F) ℓ)

/-- The block of eight samples of the first array that the step at grid point `t` works on. -/
abbrev xblk (c : Dev nD) (t : Fin cfg0.N) : Vec F S8x3x300x25 .f32 := iblk m c 0 t
/-- The block of eight samples of the second array at grid point `t`. -/
abbrev yblk (c : Dev nD) (t : Fin cfg0.N) : Vec F S8x3x300x25 .f32 := iblk m c 1 t

/-- What the two accumulators hold after a core's first step. -/
theorem first_at (c : Dev nD) (t : Fin cfg0.N) (h0 : t.val % 128 = 0) :
    outsAt0 m c t.val t.isLt
      = (k0_pay4 (xblk m c t) (yblk m c t) (k0_pay2 (F := F)), k0_pay1 (k0_pay5 (xblk m c t) (yblk m c t)) (k0_pay3 (F := F))) := by
  rw [outsAt0_A m c t h0]
  exact congrArg₂ Prod.mk
    (first_err c (grid0.coords t) (ms0_0 t) (hs0_0 t) (ms0_1 t) (hs0_1 t) (ms0_2 t) (hs0_2 t) (ms0_3 t) (hs0_3 t) ((hcond0_0 t).mpr h0) (iblk m c 0 t) (iblk m c 1 t))
    (first_rough c (grid0.coords t) (ms0_0 t) (hs0_0 t) (ms0_1 t) (hs0_1 t) (ms0_2 t) (hs0_2 t) (ms0_3 t) (hs0_3 t) ((hcond0_0 t).mpr h0) (iblk m c 0 t) (iblk m c 1 t))

/-- What the two accumulators hold after a later step, over what the step before left. -/
theorem later_at (c : Dev nD) (t : Fin cfg0.N) (h0 : ¬t.val % 128 = 0) :
    outsAt0 m c t.val t.isLt
      = (k0_pay4 (xblk m c t) (yblk m c t) (outsAt0 m c (t.val - 1) (Nat.lt_of_le_of_lt (Nat.sub_le _ _) t.isLt)).1,
         k0_pay1 (k0_pay5 (xblk m c t) (yblk m c t)) (outsAt0 m c (t.val - 1) (Nat.lt_of_le_of_lt (Nat.sub_le _ _) t.isLt)).2) := by
  rw [outsAt0_B m c t h0]
  exact congrArg₂ Prod.mk
    (later_err c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2)
    (later_rough c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1
      (outsAt0 m c (t.val - 1) (Nat.lt_of_le_of_lt (Nat.sub_le _ _) t.isLt)).2)

end Cert.KernelIdeal.Step

end
-- ==== Proof.StepValue.lean ====
/-
  The arithmetic of one step of the kernel, read at the ideal values. Over a block of eight samples the step
  adds to every lane of the squared-error accumulator the block's total squared error
  Σ_{b<8} Σ_{ch,t,j} (x − y)², and to every lane of the roughness accumulator the block's total of roots
  Σ_{b<8} Σ_{ch} rough b ch. Each total is taken one axis at a time (joints, frames, channels, then the eight
  samples through a [1,8] view); at the ideal values every such reduction is a finite sum over the axis.
-/
import proofs.«162013_j69655779606927_1_alg».proof.Proof.Gen.KernelIdeal.Skeleton
import proofs.«162013_j69655779606927_1_alg».proof.Proof.Spec
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.StepValue

open Cert.KernelIdeal Cert.KernelIdeal.Gen Cert.Loss
open scoped BigOperators

/-- The scalar a step broadcasts: eight per-sample values viewed as one row of eight, summed along the row, and
    the one entry of the result taken out — the sum of the eight. -/
theorem total_of_samples (v : FVec Ideal S8 .f32) :
    extractAt ![0, 0] (shapeCast S1x1 (multiReduction .add [1] S1 (shapeCast S1x8 v shapeCasts_S8_S1x8) 0x00000000#32
        reduces_S1x8_S1 (.inl rfl) rfl) shapeCasts_S1_S1x1) inpos_S1x1_p0_0
      = ∑ b : Fin 8, v (ix1 b) := by
  unfold extractAt
  refine (shapeCast_addUnit_apply ![1] _ shapeCasts_S1_S1x1 _).trans ?_
  refine (Ideal.multiReduction_add_single _ _ reduces_S1x8_S1 _ _ _).trans ?_
  refine Finset.sum_congr rfl fun b _ => ?_
  refine (shapeCast_addUnit_apply ![8] v shapeCasts_S8_S1x8 _).trans ?_
  exact congrArg v (funext fun a => Fin.ext (by match a with | ⟨0, _⟩ => rfl))

/-- A sample's total over channels, frames and joints, the three reductions one after the other. -/
theorem sample_total (w : FVec Ideal S8x3x300x25 .f32) (b : Fin 8) :
    multiReduction .add [1] S8 (multiReduction .add [2] S8x3 (multiReduction .add [3] S8x3x300 w 0x00000000#32
        reduces_S8x3x300x25_S8x3x300 (.inl rfl) rfl) 0x00000000#32 reduces_S8x3x300_S8x3 (.inl rfl) rfl) 0x00000000#32
        reduces_S8x3_S8 (.inl rfl) rfl (ix1 b)
      = ∑ ch : Fin 3, ∑ t : Fin 300, ∑ j : Fin 25, w (ix4 b ch t j) := by
  refine (Ideal.multiReduction_add_single _ _ reduces_S8x3_S8 _ _ (ix1 b)).trans ?_
  refine Finset.sum_congr rfl fun ch _ => ?_
  refine (Ideal.multiReduction_add_single _ _ reduces_S8x3x300_S8x3 _ _ _).trans ?_
  refine Finset.sum_congr rfl fun t _ => ?_
  refine (Ideal.multiReduction_add_single _ _ reduces_S8x3x300x25_S8x3x300 _ _ _).trans ?_
  refine Finset.sum_congr rfl fun j _ => congrArg w ?_
  exact funext fun a => Fin.ext (by match a with | ⟨0, _⟩ => rfl | ⟨1, _⟩ => rfl | ⟨2, _⟩ => rfl | ⟨3, _⟩ => rfl)

/-- The squared-error store of a step: every lane of the accumulator plus the block's total squared error. -/
theorem err_step (x y : Vec Ideal S8x3x300x25 .f32) (acc : Vec Ideal S1x8x128 .f32) (l : S1x8x128.Idx) :
    k0_pay4 (F := Ideal) x y acc l
      = acc l + ∑ b : Fin 8, ∑ ch : Fin 3, ∑ t : Fin 300, ∑ j : Fin 25, sqErr (n := 8) x y b ch t j := by
  unfold k0_pay4
  dsimp only
  rw [shapeCast_self]
  show acc l + _ = _
  rw [total_of_samples]
  refine congrArg (acc l + ·) (Finset.sum_congr rfl fun b _ => ?_)
  rw [sample_total]
  rfl

/-- One array's frame sum over a block, at (sample b, channel ch, joint j): the drift. -/
theorem drift_step (x : Vec Ideal S8x3x300x25 .f32) (b : Fin 8) (ch : Fin 3) (j : Fin 25) :
    multiReduction (F := Ideal) .add [2] S8x3x25
        (subf (extractStridedSlice S8x3x299x25 ![0, 0, 0, 0] x slices_S8x3x300x25_o0_0_0_0_S8x3x299x25)
          (mulf (extractStridedSlice S8x3x299x25 ![0, 0, 1, 0] x slices_S8x3x300x25_o0_0_1_0_S8x3x299x25)
            (extractStridedSlice S8x3x299x25 ![0, 0, 1, 0] x slices_S8x3x300x25_o0_0_1_0_S8x3x299x25)))
        0x00000000#32 reduces_S8x3x299x25_S8x3x25 (.inl rfl) rfl (ix3 b ch j)
      = drift (n := 8) x b ch j := by
  refine (Ideal.multiReduction_add_single _ _ reduces_S8x3x299x25_S8x3x25 _ _ (ix3 b ch j)).trans ?_
  unfold drift
  show ∑ t : Fin 299, _ = ∑ t : Fin 299, _
  refine Finset.sum_congr rfl fun t _ => ?_
  have e0 : extractStridedSlice S8x3x299x25 ![0, 0, 0, 0] x slices_S8x3x300x25_o0_0_0_0_S8x3x299x25
      (reduces_S8x3x299x25_S8x3x25.lift (ix3 b ch j) t) = x (ix4 b ch t.castSucc j) :=
    extractStridedSlice_apply _ x _ _ _ (fun a => by
      match a with
      | ⟨0, _⟩ => show b.val = 0 + b.val; omega
      | ⟨1, _⟩ => show ch.val = 0 + ch.val; omega
      | ⟨2, _⟩ => show t.val = 0 + t.val; omega
      | ⟨3, _⟩ => show j.val = 0 + j.val; omega)
  have e1 : extractStridedSlice S8x3x299x25 ![0, 0, 1, 0] x slices_S8x3x300x25_o0_0_1_0_S8x3x299x25
      (reduces_S8x3x299x25_S8x3x25.lift (ix3 b ch j) t) = x (ix4 b ch t.succ j) :=
    extractStridedSlice_apply _ x _ _ _ (fun a => by
      match a with
      | ⟨0, _⟩ => show b.val = 0 + b.val; omega
      | ⟨1, _⟩ => show ch.val = 0 + ch.val; omega
      | ⟨2, _⟩ => show t.val + 1 = 1 + t.val; omega
      | ⟨3, _⟩ => show j.val = 0 + j.val; omega)
  show extractStridedSlice S8x3x299x25 ![0, 0, 0, 0] x slices_S8x3x300x25_o0_0_0_0_S8x3x299x25 _
      - extractStridedSlice S8x3x299x25 ![0, 0, 1, 0] x slices_S8x3x300x25_o0_0_1_0_S8x3x299x25 _
        * extractStridedSlice S8x3x299x25 ![0, 0, 1, 0] x slices_S8x3x300x25_o0_0_1_0_S8x3x299x25 _ = _
  rw [e0, e1]

/-- The summed absolute gaps of one (sample, channel) of a block. -/
theorem gaps_step (x y : Vec Ideal S8x3x300x25 .f32) (b : Fin 8) (ch : Fin 3) :
    k0_pay5 (F := Ideal) x y (ix2 b ch) = ∑ j : Fin 24, max (gap (n := 8) x y b ch j) (-(gap (n := 8) x y b ch j)) := by
  unfold k0_pay5
  dsimp only
  refine (Ideal.multiReduction_add_single _ _ reduces_S8x3x24_S8x3 _ _ (ix2 b ch)).trans ?_
  show ∑ j : Fin 24, _ = ∑ j : Fin 24, _
  refine Finset.sum_congr rfl fun j _ => ?_
  refine (extractStridedSlice_apply ![0, 0, 0] _ slices_S8x3x25_o0_0_0_S8x3x24 _ (ix3 b ch j.castSucc) ?_).trans ?_
  · intro a
    match a with
    | ⟨0, _⟩ => show b.val = 0 + b.val; omega
    | ⟨1, _⟩ => show ch.val = 0 + ch.val; omega
    | ⟨2, _⟩ => show j.val = 0 + j.val; omega
  show max (_ - _) (-(_ - _)) = _
  unfold gap
  rw [drift_step x, drift_step y]

/-- The roughness store of a step: every lane of the accumulator plus the block's total of roots. -/
theorem rough_step (x y : Vec Ideal S8x3x300x25 .f32) (acc : Vec Ideal S1x8x128 .f32) (l : S1x8x128.Idx) :
    k0_pay1 (F := Ideal) (k0_pay5 x y) acc l = acc l + ∑ b : Fin 8, ∑ ch : Fin 3, rough (n := 8) x y b ch := by
  unfold k0_pay1
  dsimp only
  rw [shapeCast_self]
  show acc l + _ = _
  rw [total_of_samples]
  refine congrArg (acc l + ·) (Finset.sum_congr rfl fun b _ => ?_)
  refine (Ideal.multiReduction_add_single _ _ reduces_S8x3_S8 _ _ (ix1 b)).trans ?_
  show ∑ ch : Fin 3, _ = ∑ ch : Fin 3, _
  refine Finset.sum_congr rfl fun ch _ => ?_
  show Ideal.sqrt (k0_pay5 (F := Ideal) x y _) = _
  have e : reduces_S8x3_S8.lift (ix1 b) ch = ix2 b ch :=
    funext fun a => Fin.ext (by match a with | ⟨0, _⟩ => rfl | ⟨1, _⟩ => rfl)
  rw [e, gaps_step]
  rfl

end Cert.KernelIdeal.StepValue

end
-- ==== Proof.Accum.lean ====
/-
  The two accumulators over the grid. The grid has 256 points, 128 for each of the two cores; the accumulator
  block of a core is reset at the core's first point and receives one step's total at every point, so after the
  point n it holds, in every lane, the sum of the step totals of the points 128·(n / 128) … n — and at a core's last
  point, where the block is written back, the sum over the core's 128 steps.
-/
import proofs.«162013_j69655779606927_1_alg».proof.Proof.StepIdeal
import proofs.«162013_j69655779606927_1_alg».proof.Proof.StepValue

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Step Cert.KernelIdeal.StepValue Cert.Loss
open scoped BigOperators

variable (m : (ℓ : Loc nD τ sig) → Buf (Elt Ideal) ℓ)

/-- The total squared error of the block of eight samples at grid point `n` (zero off the grid). -/
def stepErr (c : Dev nD) (n : ℕ) : EReal :=
  if h : n < cfg0.N then
    ∑ b : Fin 8, ∑ ch : Fin 3, ∑ t : Fin 300, ∑ j : Fin 25, sqErr (n := 8) (xblk m c ⟨n, h⟩) (yblk m c ⟨n, h⟩) b ch t j
  else 0

/-- The total of the roots of the block of eight samples at grid point `n` (zero off the grid). -/
def stepRough (c : Dev nD) (n : ℕ) : EReal :=
  if h : n < cfg0.N then ∑ b : Fin 8, ∑ ch : Fin 3, rough (n := 8) (xblk m c ⟨n, h⟩) (yblk m c ⟨n, h⟩) b ch else 0

/-- The sum of `f` over the points of `n`'s core up to `n`. -/
def running (f : ℕ → EReal) (n : ℕ) : EReal := ∑ k ∈ Finset.range (n % 128 + 1), f (128 * (n / 128) + k)

theorem running_first (f : ℕ → EReal) (n : ℕ) (h0 : n % 128 = 0) : running f n = f n := by
  unfold running
  rw [h0, Finset.sum_range_one]
  exact congrArg f (by omega)

theorem running_later (f : ℕ → EReal) (n : ℕ) (h0 : ¬(n + 1) % 128 = 0) : running f (n + 1) = running f n + f (n + 1) := by
  unfold running
  have e1 : (n + 1) % 128 = n % 128 + 1 := by omega
  have e2 : (n + 1) / 128 = n / 128 := by omega
  rw [e1, e2, Finset.sum_range_succ]
  exact congrArg (_ + f ·) (by omega)

theorem running_last (f : ℕ → EReal) (q : ℕ) : running f (128 * q + 127) = ∑ s : Fin 128, f (128 * q + s.val) := by
  unfold running
  have e1 : (128 * q + 127) % 128 = 127 := by omega
  have e2 : (128 * q + 127) / 128 = q := by omega
  rw [e1, e2]
  exact Finset.sum_range fun k => f (128 * q + k)

/-- After the body at point `n` every lane of the first accumulator block holds the running squared error of the
    point's core, every lane of the second the running total of roots. -/
theorem outs_eq (c : Dev nD) : ∀ (n : ℕ) (h : n < cfg0.N) (l : S1x8x128.Idx),
    (outsAt0 m c n h).1 l = running (stepErr m c) n ∧ (outsAt0 m c n h).2 l = running (stepRough m c) n := by
  intro n
  induction n with
  | zero =>
    intro h l
    rw [first_at m c ⟨0, h⟩ rfl]
    dsimp only
    refine ⟨(err_step (xblk m c ⟨0, h⟩) (yblk m c ⟨0, h⟩) _ l).trans ?_,
      (rough_step (xblk m c ⟨0, h⟩) (yblk m c ⟨0, h⟩) _ l).trans ?_⟩
    · rw [running_first _ 0 rfl]
      unfold stepErr
      rw [dif_pos h]
      show Ideal.ofBits .f32 0x00000000#32 + _ = _
      rw [Ideal.ofBits_zero_f32, zero_add]
    · rw [running_first _ 0 rfl]
      unfold stepRough
      rw [dif_pos h]
      show Ideal.ofBits .f32 0x00000000#32 + _ = _
      rw [Ideal.ofBits_zero_f32, zero_add]
  | succ k ih =>
    intro h l
    by_cases h0 : (k + 1) % 128 = 0
    · rw [first_at m c ⟨k + 1, h⟩ h0]
      dsimp only
      refine ⟨(err_step (xblk m c ⟨k + 1, h⟩) (yblk m c ⟨k + 1, h⟩) _ l).trans ?_,
        (rough_step (xblk m c ⟨k + 1, h⟩) (yblk m c ⟨k + 1, h⟩) _ l).trans ?_⟩
      · rw [running_first _ (k + 1) h0]
        unfold stepErr
        rw [dif_pos h]
        show Ideal.ofBits .f32 0x00000000#32 + _ = _
        rw [Ideal.ofBits_zero_f32, zero_add]
      · rw [running_first _ (k + 1) h0]
        unfold stepRough
        rw [dif_pos h]
        show Ideal.ofBits .f32 0x00000000#32 + _ = _
        rw [Ideal.ofBits_zero_f32, zero_add]
    · rw [later_at m c ⟨k + 1, h⟩ h0]
      dsimp only
      refine ⟨(err_step (xblk m c ⟨k + 1, h⟩) (yblk m c ⟨k + 1, h⟩) _ l).trans ?_,
        (rough_step (xblk m c ⟨k + 1, h⟩) (yblk m c ⟨k + 1, h⟩) _ l).trans ?_⟩
      · rw [running_later _ k h0]
        show (outsAt0 m c k _).1 l + _ = _
        rw [(ih (Nat.lt_of_succ_lt h) l).1]
        unfold stepErr
        rw [dif_pos h]
      · rw [running_later _ k h0]
        show (outsAt0 m c k _).2 l + _ = _
        rw [(ih (Nat.lt_of_succ_lt h) l).2]
        unfold stepRough
        rw [dif_pos h]

end Cert.KernelIdeal.Accum

end
-- ==== Proof.Blocks.lean ====
/-
  From the blocks back to the arrays. The step at grid point t works on the samples 8t … 8t + 7 of the two input
  arrays, so a step's totals are the array's per-sample totals over those eight samples, a core's 128 steps cover
  1024 consecutive samples, and the two cores together every sample exactly once: the two accumulated totals add
  up to the total squared error and the total of the roots of the whole arrays.
-/
import proofs.«162013_j69655779606927_1_alg».proof.Proof.Accum
import proofs.«162013_j69655779606927_1_alg».proof.Proof.Sums

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Step Cert.KernelIdeal.Accum Cert.Loss Cert.Sums
open scoped BigOperators

variable (m : (ℓ : Loc nD τ sig) → Buf (Elt Ideal) ℓ)

/-- The first input array as the kernel's region finds it. -/
abbrev xarr (c : Dev nD) : (Arr 2048).Idx → EReal := m ((c : Thread nD τ).loc main_arg0)
/-- The second input array. -/
abbrev yarr (c : Dev nD) : (Arr 2048).Idx → EReal := m ((c : Thread nD τ).loc main_arg1)

/-- Sample `b` of the block at grid point `t` is sample `8t + b` of the array. -/
def sampleOf (t : Fin cfg0.N) (b : Fin 8) : Fin 2048 :=
  ⟨8 * t.val + b.val, by
    have h1 : t.val < 256 := lt_of_lt_of_eq t.isLt (show cfg0.N = 256 from N_0)
    have h2 := b.isLt
    omega⟩

/-- The input windows' block index at point `t` is `t` along the samples and `0` along the other axes. -/
theorem in_index : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

theorem xblk_apply (c : Dev nD) (t : Fin cfg0.N) (b : Fin 8) (ch : Fin 3) (fr : Fin 300) (j : Fin 25) :
    xblk m c t (ix4 b ch fr j) = xarr m c (ix4 (sampleOf t b) ch fr j) := by
  obtain ⟨e0, e1, e2, e3, -⟩ := in_index t
  show iblk m c 0 t (ix4 b ch fr j) = _
  unfold iblk
  rw [View.read_apply]
  show V m c main_arg0 _ = V m c main_arg0 _
  refine congrArg (V m c main_arg0) (funext fun a => Fin.ext ?_)
  match a with
  | ⟨0, _⟩ => show win0_0.index t (0 : Fin 4) * 8 + 1 * b.val = 8 * t.val + b.val; rw [e0]; omega
  | ⟨1, _⟩ => show win0_0.index t (1 : Fin 4) * 3 + 1 * ch.val = ch.val; rw [e1]; omega
  | ⟨2, _⟩ => show win0_0.index t (2 : Fin 4) * 300 + 1 * fr.val = fr.val; rw [e2]; omega
  | ⟨3, _⟩ => show win0_0.index t (3 : Fin 4) * 25 + 1 * j.val = j.val; rw [e3]; omega

theorem yblk_apply (c : Dev nD) (t : Fin cfg0.N) (b : Fin 8) (ch : Fin 3) (fr : Fin 300) (j : Fin 25) :
    yblk m c t (ix4 b ch fr j) = yarr m c (ix4 (sampleOf t b) ch fr j) := by
  obtain ⟨-, -, -, -, e0, e1, e2, e3⟩ := in_index t
  show iblk m c 1 t (ix4 b ch fr j) = _
  unfold iblk
  rw [View.read_apply]
  show V m c main_arg1 _ = V m c main_arg1 _
  refine congrArg (V m c main_arg1) (funext fun a => Fin.ext ?_)
  match a with
  | ⟨0, _⟩ => show win0_1.index t (0 : Fin 4) * 8 + 1 * b.val = 8 * t.val + b.val; rw [e0]; omega
  | ⟨1, _⟩ => show win0_1.index t (1 : Fin 4) * 3 + 1 * ch.val = ch.val; rw [e1]; omega
  | ⟨2, _⟩ => show win0_1.index t (2 : Fin 4) * 300 + 1 * fr.val = fr.val; rw [e2]; omega
  | ⟨3, _⟩ => show win0_1.index t (3 : Fin 4) * 25 + 1 * j.val = j.val; rw [e3]; omega

/-- A block's squared error at an entry is the arrays' at the corresponding sample. -/
theorem sqErr_blk (c : Dev nD) (t : Fin cfg0.N) (b : Fin 8) (ch : Fin 3) (fr : Fin 300) (j : Fin 25) :
    sqErr (n := 8) (xblk m c t) (yblk m c t) b ch fr j = sqErr (n := 2048) (xarr m c) (yarr m c) (sampleOf t b) ch fr j := by
  unfold sqErr
  rw [xblk_apply, yblk_apply]

/-- A block's root at (sample, channel) is the arrays' at the corresponding sample. -/
theorem rough_blk (c : Dev nD) (t : Fin cfg0.N) (b : Fin 8) (ch : Fin 3) :
    rough (n := 8) (xblk m c t) (yblk m c t) b ch = rough (n := 2048) (xarr m c) (yarr m c) (sampleOf t b) ch := by
  unfold rough gap drift
  simp only [xblk_apply, yblk_apply]

/-- A sum over the 2048 samples taken core by core, step by step, and over the eight samples of a step's block. -/
theorem sum_samples (f : Fin 2048 → EReal) :
    ∑ b : Fin 2048, f b
      = ∑ q : Fin 2, ∑ s : Fin 128, ∑ b : Fin 8,
          f ⟨8 * (128 * q.val + s.val) + b.val, by have := q.isLt; have := s.isLt; have := b.isLt; omega⟩ := by
  have h1 : ∑ b : Fin 2048, f b = ∑ n : Fin 256, ∑ b : Fin 8, f (grp (N := 256) (K := 8) n b) := sum_grp 256 8 f
  have h2 : ∑ n : Fin 256, ∑ b : Fin 8, f (grp (N := 256) (K := 8) n b)
      = ∑ q : Fin 2, ∑ s : Fin 128, ∑ b : Fin 8, f (grp (N := 256) (K := 8) (grp (N := 2) (K := 128) q s) b) :=
    sum_grp 2 128 fun n : Fin 256 => ∑ b : Fin 8, f (grp (N := 256) (K := 8) n b)
  rw [h1, h2]
  rfl

/-- If the step total at every grid point is the sum of a per-sample quantity over the point's eight samples, the
    two cores' accumulated totals add up to the sum of that quantity over all 2048 samples. -/
theorem total_of_cores (f : Fin 2048 → EReal) (g : ℕ → EReal)
    (hg : ∀ t : Fin cfg0.N, g t.val = ∑ b : Fin 8, f (sampleOf t b)) :
    ∑ q : Fin 2, running g (128 * q.val + 127) = ∑ b : Fin 2048, f b := by
  rw [sum_samples]
  refine Finset.sum_congr rfl fun q _ => ?_
  rw [running_last]
  refine Finset.sum_congr rfl fun s _ => ?_
  have h : 128 * q.val + s.val < cfg0.N := by
    rw [show cfg0.N = 256 from N_0]
    have := q.isLt
    have := s.isLt
    omega
  exact (hg ⟨128 * q.val + s.val, h⟩).trans (Finset.sum_congr rfl fun b _ => congrArg f (Fin.ext rfl))

/-- The two cores' accumulated squared errors add up to the arrays' total squared error. -/
theorem err_total (c : Dev nD) :
    ∑ q : Fin 2, running (stepErr m c) (128 * q.val + 127) = errTotal (xarr m c) (yarr m c) := by
  unfold errTotal
  refine total_of_cores (fun b => ∑ ch : Fin 3, ∑ t : Fin 300, ∑ j : Fin 25, sqErr (xarr m c) (yarr m c) b ch t j) _ fun t => ?_
  unfold stepErr
  rw [dif_pos t.isLt]
  exact Finset.sum_congr rfl fun b _ => Finset.sum_congr rfl fun ch _ => Finset.sum_congr rfl fun fr _ =>
    Finset.sum_congr rfl fun j _ => sqErr_blk m c t b ch fr j

/-- The two cores' accumulated totals of roots add up to the arrays' total of roots. -/
theorem rough_total (c : Dev nD) :
    ∑ q : Fin 2, running (stepRough m c) (128 * q.val + 127) = roughTotal (xarr m c) (yarr m c) := by
  unfold roughTotal
  refine total_of_cores (fun b => ∑ ch : Fin 3, rough (xarr m c) (yarr m c) b ch) _ fun t => ?_
  unfold stepRough
  rw [dif_pos t.isLt]
  exact Finset.sum_congr rfl fun b _ => Finset.sum_congr rfl fun ch _ => rough_blk m c t b ch

end Cert.KernelIdeal.Blocks

end
-- ==== Proof.KernelValue.lean ====
/-
  The kernel program's result at the ideal values. Each core's accumulator block is written back once, after the
  core's last step, to the core's slot of a [2, 8, 128] result array; every lane of slot q then holds the total
  over core q's 128 steps. The host lines after the region take lane (0, 0) of each slot, add the two cores, and
  scale: the squared-error total by 2 / 46080000, the roughness total by 3 / (6144 · 7500). With the two cores'
  totals adding up to the arrays' totals, the program's result is the loss of the two argument arrays.
-/
import proofs.«162013_j69655779606927_1_alg».proof.Proof.Blocks
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Step Cert.KernelIdeal.Accum Cert.KernelIdeal.Blocks Cert.Loss
open scoped BigOperators

variable (m : (ℓ : Loc nD τ sig) → Buf (Elt Ideal) ℓ) (ρ : Dev nD → PrngReg)

/-! ## The two result arrays of the region -/

/-- The result windows' block index at point `t`: the point's core along the slots, `0` along the lanes. -/
theorem out_index : ∀ t : Fin cfg0.N, win0_2.index t (0 : Fin 3) = t.val / 128 ∧ win0_2.index t (1 : Fin 3) = 0
    ∧ win0_2.index t (2 : Fin 3) = 0 ∧ win0_3.index t (0 : Fin 3) = t.val / 128 ∧ win0_3.index t (1 : Fin 3) = 0
    ∧ win0_3.index t (2 : Fin 3) = 0 :=
  (by decide +kernel : ∀ t : Fin grid0.N, _)

/-- What the first result array ends holding: in every lane of slot q, core q's total squared error. -/
def errArr (c : Dev nD) : S2x8x128.Idx → EReal := fun i => running (stepErr m c) (128 * (i 0).val + 127)
/-- What the second result array ends holding: in every lane of slot q, core q's total of roots. -/
def roughArr (c : Dev nD) : S2x8x128.Idx → EReal := fun i => running (stepRough m c) (128 * (i 0).val + 127)

/-- A core's last point writes back the core's slot of `errArr`. -/
theorem flushed_err (c : Dev nD) (t : Fin cfg0.N) (hf : (cfg0.win 2).flush t = true) :
    (dats m 0 c).flushed 2 t = ((cfg0.win 2).blk t).view.read (Elt Ideal) (errArr m c) := by
  have h127 : t.val % 128 = 127 := (flush0_2 t).mp hf
  obtain ⟨e0, -⟩ := out_index t
  show (cfg0.win 2).cut (grid0.coords t) ((dats m 0 c).after 2 t) = _
  rw [after0_2]
  funext y
  rw [View.read_apply]
  refine ((outs_eq m c t.val t.isLt y).1).trans ?_
  unfold errArr
  refine congrArg (running (stepErr m c)) ?_
  show t.val = 128 * (win0_2.index t (0 : Fin 3) * 1 + 1 * (y 0).val) + 127
  have hy : (y 0).val < 1 := (y 0).isLt
  rw [e0]
  omega

/-- A core's last point writes back the core's slot of `roughArr`. -/
theorem flushed_rough (c : Dev nD) (t : Fin cfg0.N) (hf : (cfg0.win 3).flush t = true) :
    (dats m 0 c).flushed 3 t = ((cfg0.win 3).blk t).view.read (Elt Ideal) (roughArr m c) := by
  have h127 : t.val % 128 = 127 := (flush0_3 t).mp hf
  obtain ⟨-, -, -, e0, -⟩ := out_index t
  show (cfg0.win 3).cut (grid0.coords t) ((dats m 0 c).after 3 t) = _
  rw [after0_3]
  funext y
  rw [View.read_apply]
  refine ((outs_eq m c t.val t.isLt y).2).trans ?_
  unfold roughArr
  refine congrArg (running (stepRough m c)) ?_
  show t.val = 128 * (win0_3.index t (0 : Fin 3) * 1 + 1 * (y 0).val) + 127
  have hy : (y 0).val < 1 := (y 0).isLt
  rw [e0]
  omega

/-- The last point of core `q`. -/
def lastOf (q : Fin 2) : Fin cfg0.N :=
  ⟨128 * q.val + 127, by rw [show cfg0.N = 256 from N_0]; have := q.isLt; omega⟩

/-- Every entry of the first result array is in the block some core's last point writes back. -/
theorem cover_err (i : S2x8x128.Idx) :
    ∃ t : Fin cfg0.N, (cfg0.win 2).flush t = true ∧ i ∈ ((cfg0.win 2).blk t).view.set := by
  have h0 : (i 0).val < 2 := (i 0).isLt
  have h1 : (i 1).val < 8 := (i 1).isLt
  have h2 : (i 2).val < 128 := (i 2).isLt
  obtain ⟨e0, e1, e2, -⟩ := out_index (lastOf (i 0))
  have ev : (lastOf (i 0)).val = 128 * (i 0).val + 127 := rfl
  refine ⟨lastOf (i 0), (flush0_2 _).mpr (by rw [ev]; omega), ?_⟩
  show i ∈ ((View.whole main_v0_0).slice (win0_2.rect (lastOf (i 0)))).set
  rw [View.set_slice_whole, Rect.mem_set_unit]
  intro a
  match a with
  | ⟨0, _⟩ =>
    show win0_2.index (lastOf (i 0)) (0 : Fin 3) * 1 ≤ (i 0).val ∧ (i 0).val < win0_2.index (lastOf (i 0)) (0 : Fin 3) * 1 + 1
    rw [e0, ev]; omega
  | ⟨1, _⟩ =>
    show win0_2.index (lastOf (i 0)) (1 : Fin 3) * 8 ≤ (i 1).val ∧ (i 1).val < win0_2.index (lastOf (i 0)) (1 : Fin 3) * 8 + 8
    rw [e1]; omega
  | ⟨2, _⟩ =>
    show win0_2.index (lastOf (i 0)) (2 : Fin 3) * 128 ≤ (i 2).val ∧ (i 2).val < win0_2.index (lastOf (i 0)) (2 : Fin 3) * 128 + 128
    rw [e2]; omega

/-- The same for the second result array. -/
theorem cover_rough (i : S2x8x128.Idx) :
    ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  obtain ⟨-, -, -, e0, e1, e2⟩ := out_index (lastOf (i 0))
  have ev : (lastOf (i 0)).val = 128 * (i 0).val + 127 := rfl
  refine ⟨lastOf (i 0), (flush0_3 _).mpr (by rw [ev]; omega), ?_⟩
  show i ∈ ((View.whole main_v0_1).slice (win0_3.rect (lastOf (i 0)))).set
  rw [View.set_slice_whole, Rect.mem_set_unit]
  intro a
  match a with
  | ⟨0, _⟩ =>
    show win0_3.index (lastOf (i 0)) (0 : Fin 3) * 1 ≤ (i 0).val ∧ (i 0).val < win0_3.index (lastOf (i 0)) (0 : Fin 3) * 1 + 1
    rw [e0, ev]; omega
  | ⟨1, _⟩ =>
    show win0_3.index (lastOf (i 0)) (1 : Fin 3) * 8 ≤ (i 1).val ∧ (i 1).val < win0_3.index (lastOf (i 0)) (1 : Fin 3) * 8 + 8
    rw [e1]; omega
  | ⟨2, _⟩ =>
    show win0_3.index (lastOf (i 0)) (2 : Fin 3) * 128 ≤ (i 2).val ∧ (i 2).val < win0_3.index (lastOf (i 0)) (2 : Fin 3) * 128 + 128
    rw [e2]; omega

/-- The first result array after the region. -/
theorem final_err (c : Dev nD) : (dats m 0 c).arrAt 2 cfg0.N = errArr m c :=
  (dats m 0 c).arrAt_eq_of_cover 2 (errArr m c) (flushed_err m c) (cover_err)

/-- The second result array after the region. -/
theorem final_rough (c : Dev nD) : (dats m 0 c).arrAt 3 cfg0.N = roughArr m c :=
  (dats m 0 c).arrAt_eq_of_cover 3 (roughArr m c) (flushed_rough m c) (cover_rough)

/-! ## The host lines after the region -/

/-- Lane (0, 0) of each slot, as the vector of the two slots. -/
theorem lane_apply (A : S2x8x128.Idx → EReal) (q : Fin 2) :
    shapeCast S2 (extractStridedSlice S2x1x1 ![0, 0, 0] A slices_S2x8x128_S2x1x1_0_0_0) shapeCasts_S2x1x1_S2 (ix1 q)
      = A (ix3 q 0 0) := by
  refine (shapeCast_apply _ shapeCasts_S2x1x1_S2 _ (ix3 q 0 0) ?_).trans ?_
  · rw [Shape.rowMajor_val_three, Shape.rowMajor_val_one]
    show (q.val * 1 + 0) * 1 + 0 = q.val
    omega
  · exact extractStridedSlice_apply _ A _ _ (ix3 q 0 0) (fun a => by
      match a with
      | ⟨0, _⟩ => show q.val = 0 + q.val; omega
      | ⟨1, _⟩ => rfl
      | ⟨2, _⟩ => rfl)

/-- The host's sum over the two slots. -/
theorem cores_sum (v : S2.Idx → EReal) (a : Fin 2 → EReal) (hv : ∀ q : Fin 2, v (ix1 q) = a q) (i : S_.Idx) :
    Host.reduceAdd (F := Ideal) v (constant S_ .f32 0x00000000#32) reducesTo_S2_S_d0 h_S_ i = ∑ q : Fin 2, a q := by
  simp only [Host.reduceAdd, Ideal.hostReduceAdd_def]
  rw [Ideal.hostReduceAdd_total reducesTo_S2_S_d0 (fun b => b.elim0)]
  show Ideal.ofBits .f32 0x00000000#32 + _ = _
  rw [Ideal.ofBits_zero_f32, zero_add, Cert.Sums.sum_idx1]
  exact Finset.sum_congr rfl fun q _ => hv q

/-- The program's result buffer after the host lines: the loss. -/
theorem tail_eq (c : Dev nD) :
    Pipeline.afterTail₀ cfgs (dats m) 0 (V0 m) [hostOps1] c main_v12 = fun _ => loss (xarr m c) (yarr m c) := by
  unfold Pipeline.afterTail₀
  show StableHlo.after hostOps1 _ (Proc.devRef .tc main_v12) = _
  after_results
  have e2 : Pipeline.withArrays (cfgs 0).spec c (V0 m c) (fun w => (dats m 0 c).arrAt w (cfgs 0).N) (Proc.tc.devRef main_v0_0)
      = errArr m c :=
    (Pipeline.withArrays_arr spec0 launch0.win.arr_inj c _ _ 2).trans (final_err m c)
  have e3 : Pipeline.withArrays (cfgs 0).spec c (V0 m c) (fun w => (dats m 0 c).arrAt w (cfgs 0).N) (Proc.tc.devRef main_v0_1)
      = roughArr m c :=
    (Pipeline.withArrays_arr spec0 launch0.win.arr_inj c _ _ 3).trans (final_rough m c)
  rw [e2, e3]
  funext i
  unfold loss
  refine congrArg₂ (· + ·)
    (congrArg (Ideal.ofBits .f32 0x40000000#32 * ·) (congrArg (Ideal.div · (Ideal.ofBits .f32 0x4C2FC800#32)) ?_))
    (congrArg (Ideal.ofBits .f32 0x40400000#32 * ·) (congrArg (Ideal.div · (Ideal.ofBits .f32 0x45EA6000#32))
      (congrArg (Ideal.div · (Ideal.ofBits .f32 0x45C00000#32)) ?_)))
  · exact (cores_sum _ _ (fun q => lane_apply (errArr m c) q) i).trans (err_total m c)
  · exact (cores_sum _ _ (fun q => lane_apply (roughArr m c) q) i).trans (rough_total m c)

/-! ## The run, read -/

theorem result_mem : main_v12 ∈ Pipeline.restRefs sig (cfgs 0).spec :=
  Pipeline.mem_restRefs_of main_v12 rfl (by decide)

/-- Every weakly fair execution of the kernel program ends with its result at the loss of the argument arrays,
    and the arguments unchanged. -/
theorem run : θ_run defs (onTc (τ := τ) (main (F := Ideal))) ⟨m, fun _ => 0, ρ⟩ fun r => ∀ c : Dev nD,
      r.2.mem ((c : Thread nD τ).loc main_v12) = (fun _ => loss (xarr m c) (yarr m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v12 result_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The certificate: the Pallas kernel and its jnp reference compute the same loss

      2 · mean((X − T)²)  +  3 · mean_{b,ch}( √(Σ_{j<24} |drift X b ch j − drift T b ch j|) / 7500 )

  over the extended reals. The kernel streams the two arrays in blocks of eight samples over a grid of two cores
  by 128 steps, adds each block's total squared error and total of roots into one accumulator block per core, and
  lets the host add the two cores and scale; the reference takes the same totals over the whole arrays at once,
  on a transposed layout, dividing every root by 7500 before it averages. The sums are the same sums taken in
  another order (addition on the extended reals is commutative and associative), and the constant divisor passes
  through the sum of the roots because every root is non-negative: no finiteness of the inputs is used.

  The three frame conjuncts are the imported generated frames (the reference's is its generated run with the
  result dropped); the kernel's idealization is the kernel's own text read over the extended reals, so the
  preservation conjunct is trivial.
-/
import proofs.«162013_j69655779606927_1_alg».proof.Defs
import proofs.«162013_j69655779606927_1_alg».proof.Proof.Gen.Kernel
import proofs.«162013_j69655779606927_1_alg».proof.Proof.Gen.Kernel.Frame
import proofs.«162013_j69655779606927_1_alg».proof.Proof.Gen.KernelIdeal
import proofs.«162013_j69655779606927_1_alg».proof.Proof.Gen.KernelIdeal.Frame
import proofs.«162013_j69655779606927_1_alg».proof.Proof.Gen.ReferenceIdeal
import proofs.«162013_j69655779606927_1_alg».proof.Proof.Gen.ReferenceIdeal.Run
import proofs.«162013_j69655779606927_1_alg».proof.Proof.Gen.ReferenceIdeal.Read
import proofs.«162013_j69655779606927_1_alg».proof.Proof.Gen.Pre_finite_inputs
import proofs.«162013_j69655779606927_1_alg».proof.Proof.RefValue
import proofs.«162013_j69655779606927_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the (agreeing) argument arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  funext i
  exact Cert.ReferenceIdeal.RefValue.result_eq _ _ i

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
